-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384 : Shape := ⟨1, ![16384]⟩
abbrev S512x256 : Shape := ⟨2, ![512, 256]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384 : S_.BroadcastsInDim S16384 (![] : Fin 0 → Fin S16384.rank)
  reducesTo_S16384_S_d0 : S16384.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S16384x1 .f32) (main_arg1 : FVec F S16384 .f32) (main_arg2 : FVec F S16384 .f32) (main_arg3 : FVec F S512x256 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S16384x1 : Shape := ⟨2, ![16384, 1]⟩
abbrev S16384 : Shape := ⟨1, ![16384]⟩
abbrev S512x256 : Shape := ⟨2, ![512, 256]⟩
abbrev S1x16384 : Shape := ⟨2, ![1, 16384]⟩
abbrev S1x1 : Shape := ⟨2, ![1, 1]⟩
abbrev S128x1 : Shape := ⟨2, ![128, 1]⟩
abbrev S128x16384 : Shape := ⟨2, ![128, 16384]⟩
abbrev S128 : Shape := ⟨1, ![128]⟩
abbrev S1 : Shape := ⟨1, ![1]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S512x256, .f32⟩
  | .hbm, ⟨4, _⟩ => ⟨S1x16384, .f32⟩
  | .hbm, ⟨5, _⟩ => ⟨S1x16384, .f32⟩
  | .hbm, ⟨6, _⟩ => ⟨S16384x1, .f32⟩
  | .hbm, ⟨7, _⟩ => ⟨S16384x1, .f32⟩
  | .hbm, ⟨8, _⟩ => ⟨S1x1, .f32⟩
  | .hbm, ⟨9, _⟩ => ⟨S_, .f32⟩
  | .hbm, ⟨10, _⟩ => ⟨S512x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x16384, .f32⟩
  | .local _ .vmem, ⟨1, _⟩ => ⟨S1x16384, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S1x1, .f32⟩
  | .local _ .vmem, ⟨9, _⟩ => ⟨S1x1, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v32 : BitVec 1 := Scalar.cmpi .eq arg0 c127_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S16384x1_S1x16384 : S16384x1.ShapeCasts S1x16384
  shapeCasts_S16384_S1x16384 : S16384.ShapeCasts S1x16384
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1x16384_S128x16384 : S1x16384.Broadcasts S128x16384
  broadcasts_S128x1_S128x16384 : S128x1.Broadcasts S128x16384
  natLt_1_32 : 1 < 32
  reduces_S128x16384_S128 : S128x16384.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  reducesTo_S512x256_S_d0_1 : S512x256.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x16384.size a
  hwx0_0 : ∀ i : grid0.Coords, EltTy.bits .f32 = 32 ∨ (Rect.block (s := S1x16384) S1x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S16384x1.size a
  hwx0_4 : ∀ i : grid0.Coords, EltTy.bits .f32 = 32 ∨ (Rect.block (s := S16384x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v1) S1x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x1 : Shape := ⟨2, ![16384, 1]⟩
abbrev S16384 : Shape := ⟨1, ![16384]⟩
abbrev S512x256 : Shape := ⟨2, ![512, 256]⟩
abbrev S1x16384 : Shape := ⟨2, ![1, 16384]⟩
abbrev S16384x16384 : Shape := ⟨2, ![16384, 16384]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S512x256, .f32⟩
  | .hbm, ⟨4, _⟩ => ⟨S16384, .f32⟩
  | .hbm, ⟨5, _⟩ => ⟨S1x16384, .f32⟩
  | .hbm, ⟨6, _⟩ => ⟨S16384x1, .f32⟩
  | .hbm, ⟨7, _⟩ => ⟨S16384x16384, .f32⟩
  | .hbm, ⟨8, _⟩ => ⟨S16384x16384, .f32⟩
  | .hbm, ⟨9, _⟩ => ⟨S16384x16384, .i1⟩
  | .hbm, ⟨10, _⟩ => ⟨S16384x16384, .f32⟩
  | .hbm, ⟨11, _⟩ => ⟨S16384, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  shapeCasts_S16384x1_S16384 : S16384x1.ShapeCasts S16384
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_
  reducesTo_S512x256_S_d0_1 : S512x256.ReducesTo [0, 1] S_

variable [Facts₀]

class Facts : Prop extends Facts₀ where

variable [Facts]
-- ==== Proof.Loss.lean ====
/-
  The Cox partial-likelihood loss as ONE function of three sample-indexed arrays over the extended reals,
  and the two facts that let a tiled accumulation and a whole-array sum be read as that function.

  For samples i, j < 16384 with scores θ, durations d and event marks e:
    atRisk (d i) (d j) = 1 when d j ≥ d i, else 0            (sample j is still at risk at i's time)
    riskSum i          = ∑ j, atRisk (d i) (d j) · exp (θ j)
    term i             = (θ i − log (riskSum i)) · e i
    coxLoss            = −((∑ i, term i) / 16384)

  The 0/1 weight is reached in two ways: a one-bit comparison read directly as an unsigned number, or first
  widened to 32 bits and then read as a signed number; both are the comparison bit's value (atRisk_of_unsigned,
  atRisk_of_widened_signed).

  The 16384 samples split into 128 tiles of 128 consecutive rows, sample 128·t + r being row r of tile t.
  Addition on the extended reals is commutative and associative, so the sum over all samples is the sum over
  the tiles of each tile's sum (sum_tiles): no finiteness is used anywhere.
-/
import Idealize.ShloMosaic.PureOps.Ideal.Laws
import Idealize.ShloMosaic.Lib.ValueIdx

noncomputable section

open scoped BigOperators

namespace Cert.Loss

open Idealize.ShloMosaic Idealize.ShloMosaic.ValueIdx

/-- Sample `128·t + r`: row `r` of tile `t`. -/
abbrev row (t r : Fin 128) : Fin 16384 :=
  ⟨128 * t.val + r.val, by have := t.isLt; have := r.isLt; omega⟩

/-- `1` when `dj ≥ di`, else `0`: the value of the comparison bit. -/
def atRisk (di dj : EReal) : EReal := (((Ideal.cmp .oge dj di).toNat : ℝ) : EReal)

/-- The risk-set sum of sample `i`. -/
def riskSum (θ d : Fin 16384 → EReal) (i : Fin 16384) : EReal :=
  ∑ j : Fin 16384, atRisk (d i) (d j) * Ideal.exp (θ j)

/-- Sample `i`'s contribution to the log partial likelihood. -/
def term (θ d e : Fin 16384 → EReal) (i : Fin 16384) : EReal :=
  (θ i - Ideal.log (riskSum θ d i)) * e i

/-- One tile's contribution: the sum of its 128 rows' terms. -/
def tileSum (θ d e : Fin 16384 → EReal) (t : Fin 128) : EReal :=
  ∑ r : Fin 128, term θ d e (row t r)

/-- The loss: minus the mean of the terms (the divisor is the float word of 16384, kept as a word). -/
def coxLoss (θ d e : Fin 16384 → EReal) : EReal :=
  -(Ideal.div (∑ i : Fin 16384, term θ d e i) (Ideal.ofBits .f32 0x46800000#32))

/-- A [16384, 1] column as a function of the sample. -/
abbrev ofCol (x : (⟨2, ![16384, 1]⟩ : Shape).Idx → EReal) : Fin 16384 → EReal := fun i => x (ix2 i 0)

/-- A [16384] vector as a function of the sample. -/
abbrev ofVec (x : (⟨1, ![16384]⟩ : Shape).Idx → EReal) : Fin 16384 → EReal := fun i => x (ix1 i)

/-- A scalar with the weight penalty added: `x + λ · sqrt (∑ W²)`, the factor `λ` the float word of 0.01. Both
    programs end in exactly these operations on the same weight array, so the penalty is never opened: two
    results agree as soon as the scalars they add it to agree. -/
def withPenalty (h : (⟨2, ![512, 256]⟩ : Shape).ReducesTo [0, 1] ⟨0, ![]⟩) (hpos : 0 < (⟨0, ![]⟩ : Shape).numel)
    (x : (⟨0, ![]⟩ : Shape).Idx → EReal) (W : (⟨2, ![512, 256]⟩ : Shape).Idx → EReal) : (⟨0, ![]⟩ : Shape).Idx → EReal :=
  addf (F := Ideal) (φ := .f32) x (mulf (F := Ideal) (φ := .f32) (constant (F := Ideal) ⟨0, ![]⟩ .f32 0x3C23D70A#32)
    (Host.sqrt (F := Ideal) (Host.reduceAdd (F := Ideal) (mulf (F := Ideal) (φ := .f32) W W) (constant (F := Ideal) ⟨0, ![]⟩ .f32 0x00000000#32) h hpos)))

/-! ## The comparison bit as a number, two ways -/

/-- A one-bit word widened to 32 bits and read as a signed integer is the bit. -/
theorem widened_signed (w : BitVec 1) : (w.setWidth 32).toInt = (w.toNat : ℤ) := by
  revert w; decide

/-- The comparison bit read directly as an unsigned number. -/
theorem atRisk_of_unsigned (a b : EReal) :
    FloatOps.uitofp (F := Ideal) .f32 (FloatOps.cmpf (F := Ideal) (φ := .f32) .oge a b) = atRisk b a := rfl

/-- The comparison bit widened to 32 bits and read as a signed number. -/
theorem atRisk_of_widened_signed (a b : EReal) :
    FloatOps.sitofp (F := Ideal) .f32 ((FloatOps.cmpf (F := Ideal) (φ := .f32) .oge a b).setWidth 32) = atRisk b a := by
  show ((((Ideal.cmp .oge a b).setWidth 32).toInt : ℝ) : EReal) = (((Ideal.cmp .oge a b).toNat : ℝ) : EReal)
  rw [widened_signed, Int.cast_natCast]

/-! ## Sums over a rank-1 index set and over the tiles -/

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- (tile, row) ↔ sample: `(t, r) ↦ 128·t + r`, with inverse `i ↦ (i / 128, i % 128)`. -/
def tileEquiv : Fin 128 × Fin 128 ≃ Fin 16384 where
  toFun p := row p.1 p.2
  invFun i := (⟨i.val / 128, by have := i.isLt; omega⟩, ⟨i.val % 128, by omega⟩)
  left_inv p := by
    obtain ⟨t, r⟩ := p
    have ht := t.isLt; have hr := r.isLt
    apply Prod.ext <;> apply Fin.ext <;> simp only [row] <;> omega
  right_inv i := by
    apply Fin.ext; simp only [row]; omega

/-- The sum over all samples is the sum over the tiles of each tile's sum. -/
theorem sum_tiles {M : Type*} [AddCommMonoid M] (f : Fin 16384 → M) :
    ∑ t : Fin 128, ∑ r : Fin 128, f (row t r) = ∑ i : Fin 16384, f i := by
  rw [← Equiv.sum_comp tileEquiv f, Fintype.sum_prod_type]
  rfl

/-- A sum over the first 128 naturals of a function given on `Fin 128` is the sum over `Fin 128`. -/
theorem sum_range_fin {M : Type*} [AddCommMonoid M] (p : Fin 128 → M) :
    ∑ t ∈ Finset.range 128, (if h : t < 128 then p ⟨t, h⟩ else 0) = ∑ t : Fin 128, p t := by
  rw [Finset.sum_range]
  exact Finset.sum_congr rfl fun t _ => dif_pos t.isLt

/-- The loss from the tiles' sums. -/
theorem coxLoss_eq_tiles (θ d e : Fin 16384 → EReal) :
    coxLoss θ d e = -(Ideal.div (∑ t : Fin 128, tileSum θ d e t) (Ideal.ofBits .f32 0x46800000#32)) := by
  unfold coxLoss tileSum
  rw [sum_tiles]

end Cert.Loss

end
-- ==== Proof.RefValue.lean ====
/-
  The reference program's result is the loss of its three sample arrays plus the weight penalty.

  Read one operation at a time, at an index: the pairwise comparison of durations (column j against row i) is
  the at-risk weight of j at i's time; its product with exp θ j, summed over j from zero, is i's risk-set sum;
  (θ i − log of that) · e i is i's term; the terms' sum from zero, divided by 16384 and negated, is the loss.
  The only algebra is 0 + x = x and the commutation of one product (the reference multiplies exp θ j by the
  weight, the specification the weight by exp θ j).
-/
import proofs.«104177_j75368086110967_1_alg».proof.Proof.Gen.ReferenceIdeal.Read
import proofs.«104177_j75368086110967_1_alg».proof.Proof.Loss

noncomputable section

open scoped BigOperators

namespace Cert.ReferenceIdeal.LossValue

open Cert.ReferenceIdeal Cert.ReferenceIdeal.Gen Cert.ReferenceIdeal.Read Cert.Loss
open Idealize.ShloMosaic Idealize.ShloMosaic.ValueIdx

/-! ## Which entries each stage reads -/

/-- The flattened score at sample `i` is the column's entry `(i, 0)`. -/
theorem idx_theta (i : Fin 16384) : idx_main_v0 (ix1 i) = ix2 i 0 :=
  funext fun a => match a with
    | ⟨0, _⟩ => Fin.ext (Nat.div_one _)
    | ⟨1, _⟩ => rfl

/-- Entry `(i, k)` of the broadcast score row is sample `k`'s. -/
theorem idx_exp (i k : Fin 16384) : idx_main_v8 (idx_main_v9 (idx_main_v11 (ix1 i) k)) = ix1 k :=
  funext fun a => match a with | ⟨0, _⟩ => rfl

/-- Entry `(i, k)` of the broadcast duration row is sample `k`'s … -/
theorem idx_dur_row (i k : Fin 16384) : idx_main_v1 (idx_main_v3 (idx_main_v11 (ix1 i) k)) = ix1 k :=
  funext fun a => match a with | ⟨0, _⟩ => rfl

/-- … and of the broadcast duration column sample `i`'s. -/
theorem idx_dur_col (i k : Fin 16384) : idx_main_v2 (idx_main_v4 (idx_main_v11 (ix1 i) k)) = ix1 i :=
  funext fun a => match a with | ⟨0, _⟩ => rfl

/-! ## The stages at an index -/

theorem theta_at (x0 : S16384x1.Idx → EReal) (i : Fin 16384) :
    val_main_v0 (F := Ideal) x0 (ix1 i) = ofCol x0 i := by
  rw [val_main_v0_apply, idx_theta]

/-- Entry `(i, k)` of the weighted matrix: sample `k`'s weight at `i`'s time times `exp θ k`. -/
theorem weighted_at (x0 : S16384x1.Idx → EReal) (x1 : S16384.Idx → EReal) (i k : Fin 16384) :
    val_main_v10 (F := Ideal) x0 x1 (idx_main_v11 (ix1 i) k)
      = atRisk (ofVec x1 i) (ofVec x1 k) * Ideal.exp (ofCol x0 k) := by
  rw [val_main_v10_apply, val_main_v9_apply, val_main_v8_apply, val_main_v7_apply, idx_exp, theta_at,
    val_main_v6_apply, val_main_v5_apply, val_main_v3_apply, val_main_v1_apply, idx_dur_row,
    val_main_v4_apply, val_main_v2_apply, idx_dur_col, atRisk_of_unsigned]
  simp only [Ideal.mulf_def, Ideal.hostUnary_exp_def]
  exact mul_comm _ _

/-- Sample `j`'s term. -/
theorem term_at (x0 : S16384x1.Idx → EReal) (x1 x2 : S16384.Idx → EReal) (j : Fin 16384) :
    val_main_v14 (F := Ideal) x0 x1 x2 (ix1 j) = term (ofCol x0) (ofVec x1) (ofVec x2) j := by
  rw [val_main_v14_apply, val_main_v13_apply, val_main_v12_apply, val_main_v11_apply, theta_at,
    Finset.sum_congr rfl fun k _ => weighted_at x0 x1 j k]
  simp only [Ideal.mulf_def, Ideal.subf_def, Ideal.hostUnary_log_def, val_main_cst_apply, Ideal.ofBits_def,
    Ideal.ofBits_zero_f32, zero_add]
  rfl

/-- The negated mean of the terms is the loss. -/
theorem loss_at (x0 : S16384x1.Idx → EReal) (x1 x2 : S16384.Idx → EReal) (i : S_.Idx) :
    val_main_v17 (F := Ideal) x0 x1 x2 i = coxLoss (ofCol x0) (ofVec x1) (ofVec x2) := by
  rw [val_main_v17_apply, val_main_v16_apply, val_main_v15_apply, sum_idx1,
    Finset.sum_congr rfl fun j _ => term_at x0 x1 x2 j]
  simp only [Ideal.hostNegf_def, Ideal.negf_def, Ideal.hostDivf_def, val_main_cst_0_apply, val_main_cst_1_apply,
    Ideal.ofBits_def, Ideal.ofBits_zero_f32, zero_add]
  rfl

/-- The reference's whole result term: the loss with the weight penalty added. -/
theorem result_eq (x0 : S16384x1.Idx → EReal) (x1 x2 : S16384.Idx → EReal) (x3 : S512x256.Idx → EReal) :
    val_main_v20 (F := Ideal) x0 x1 x2 x3
      = withPenalty reducesTo_S512x256_S_d0_1 h_S_ (fun _ => coxLoss (ofCol x0) (ofVec x1) (ofVec x2)) x3 := by
  have e : val_main_v17 (F := Ideal) x0 x1 x2 = fun _ => coxLoss (ofCol x0) (ofVec x1) (ofVec x2) :=
    funext fun i => loss_at x0 x1 x2 i
  unfold val_main_v20
  rw [e]
  rfl

end Cert.ReferenceIdeal.LossValue

end
-- ==== Proof.Pieces.lean ====
/-
  What each control case of the kernel body leaves behind, as a term over the body's loads.

  The body has one accumulator cell carried from grid point to grid point and one output cell.
    first point  : the accumulator is reset to the zero block and then updated, so it ends at
                   update(blocks, zero);
    middle points: it ends at update(blocks, what the point before left);
    last point   : the same update, and the output cell receives finish(that update).
  Every store covers its whole one-by-one buffer, so the last store into a buffer decides its contents, and a
  load of the accumulator after a store in the same run reads what that store wrote.
-/
import proofs.«104177_j75368086110967_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the accumulator ends at the update of the zero block. -/
theorem acc_first (c : Dev nD) (i : grid0.Coords) (a1 : Memref sig .tc .vmem S1x16384 .f32) (h1 : a1.IsWhole) (a2 : Memref sig .tc .vmem S1x16384 .f32) (h2 : a2.IsWhole) (a3 : Memref sig .tc .vmem S128x1 .f32) (h3 : a3.IsWhole) (a4 : Memref sig .tc .vmem S128x1 .f32) (h4 : a4.IsWhole) (a5 : Memref sig .tc .vmem S128x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 : Vec F S1x16384 .f32) (x1 : Vec F S1x16384 .f32) (x2 : Vec F S128x1 .f32) (x3 : Vec F S128x1 .f32) (x4 : Vec F S128x1 .f32) :
    sout0_A_0 c i a1 h1 a2 h2 a3 h3 a4 h4 a5 h5 a6 h6 a7 h7 hc0 hc1 x0 x1 x2 x3 x4 = k0_pay2 x0 x1 x2 x3 x4 (k0_pay1 (F := F)) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1x1) hz]
  simp only [View.readAt_eq_ld, h1.read_unread, h2.read_unread, h3.read_unread, h4.read_unread, h5.read_unread,
    View.ld_unit_zero (S := S1x16384) hz, View.ld_unit_zero (S := S128x1) hz,
    View.readCov_unit_zero (S := S1x1) _ hz]

/-- Middle points: the accumulator ends at the update of what it held. -/
theorem acc_middle (c : Dev nD) (i : grid0.Coords) (a1 : Memref sig .tc .vmem S1x16384 .f32) (h1 : a1.IsWhole) (a2 : Memref sig .tc .vmem S1x16384 .f32) (h2 : a2.IsWhole) (a3 : Memref sig .tc .vmem S128x1 .f32) (h3 : a3.IsWhole) (a4 : Memref sig .tc .vmem S128x1 .f32) (h4 : a4.IsWhole) (a5 : Memref sig .tc .vmem S128x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 : Vec F S1x16384 .f32) (x1 : Vec F S1x16384 .f32) (x2 : Vec F S128x1 .f32) (x3 : Vec F S128x1 .f32) (x4 : Vec F S128x1 .f32) (xs0 : Vec F S1x1 .f32) :
    sout0_B_0 c i a1 h1 a2 h2 a3 h3 a4 h4 a5 h5 a6 h6 a7 h7 hc0 hc1 x0 x1 x2 x3 x4 xs0 = k0_pay2 x0 x1 x2 x3 x4 xs0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  sl_unfold_words
  rw [View.canon_unit_zero (S := S1x1) hz]
  simp only [View.readAt_eq_ld, h1.read_unread, h2.read_unread, h3.read_unread, h4.read_unread, h5.read_unread,
    h7.read_unread, View.ld_unit_zero (S := S1x16384) hz, View.ld_unit_zero (S := S128x1) hz,
    View.ld_unit_zero (S := S1x1) hz]

/-- Last point: the accumulator likewise … -/
theorem acc_last (c : Dev nD) (i : grid0.Coords) (a1 : Memref sig .tc .vmem S1x16384 .f32) (h1 : a1.IsWhole) (a2 : Memref sig .tc .vmem S1x16384 .f32) (h2 : a2.IsWhole) (a3 : Memref sig .tc .vmem S128x1 .f32) (h3 : a3.IsWhole) (a4 : Memref sig .tc .vmem S128x1 .f32) (h4 : a4.IsWhole) (a5 : Memref sig .tc .vmem S128x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 : Vec F S1x16384 .f32) (x1 : Vec F S1x16384 .f32) (x2 : Vec F S128x1 .f32) (x3 : Vec F S128x1 .f32) (x4 : Vec F S128x1 .f32) (xs0 : Vec F S1x1 .f32) :
    sout0_C_0 c i a1 h1 a2 h2 a3 h3 a4 h4 a5 h5 a6 h6 a7 h7 hc0 hc1 x0 x1 x2 x3 x4 xs0 = k0_pay2 x0 x1 x2 x3 x4 xs0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero (S := S1x1) hz]
  simp only [View.readAt_eq_ld, h1.read_unread, h2.read_unread, h3.read_unread, h4.read_unread, h5.read_unread,
    h7.read_unread, View.ld_unit_zero (S := S1x16384) hz, View.ld_unit_zero (S := S128x1) hz,
    View.ld_unit_zero (S := S1x1) hz]

/-- … and the output cell receives the finishing step of that update. -/
theorem out_last (c : Dev nD) (i : grid0.Coords) (a1 : Memref sig .tc .vmem S1x16384 .f32) (h1 : a1.IsWhole) (a2 : Memref sig .tc .vmem S1x16384 .f32) (h2 : a2.IsWhole) (a3 : Memref sig .tc .vmem S128x1 .f32) (h3 : a3.IsWhole) (a4 : Memref sig .tc .vmem S128x1 .f32) (h4 : a4.IsWhole) (a5 : Memref sig .tc .vmem S128x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 : Vec F S1x16384 .f32) (x1 : Vec F S1x16384 .f32) (x2 : Vec F S128x1 .f32) (x3 : Vec F S128x1 .f32) (x4 : Vec F S128x1 .f32) (xs0 : Vec F S1x1 .f32) :
    out0_C_5 c i a1 h1 a2 h2 a3 h3 a4 h4 a5 h5 a6 h6 a7 h7 hc0 hc1 x0 x1 x2 x3 x4 xs0 = k0_pay3 (k0_pay2 x0 x1 x2 x3 x4 xs0) := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero (S := S1x1) hz]
  simp only [View.readAt_eq_ld, h1.read_unread, h2.read_unread, h3.read_unread, h4.read_unread, h5.read_unread,
    h7.read_unread, View.ld_unit_zero (S := S1x16384) hz, View.ld_unit_zero (S := S128x1) hz,
    View.ld_unit_zero (S := S1x1) hz, View.readCov_unit_zero (S := S1x1) _ hz]

end Cert.KernelIdeal.Pieces

end
-- ==== Proof.TileValue.lean ====
/-
  The body's three payloads read at an index over the extended reals.

  The update of the accumulator by one tile. Its loads are the duration row and the score row (both [1, 16384]),
  and the tile's 128 durations, scores and event marks (columns [128, 1]). At row r and lane j the weighted
  entry is atRisk (d_r) (d_j) · exp θ_j: the comparison of the broadcast row against the broadcast column,
  widened and read as a signed number, times the broadcast exponential. Its lane sum is row r's risk-set sum,
  (θ_r − log of it) · e_r is row r's term, and the sum of the 128 terms is added to the accumulator.
  The reset stores zero; the finishing step is 0 − acc / 16384 = −(acc / 16384).
-/
import proofs.«104177_j75368086110967_1_alg».proof.Proof.Gen.KernelIdeal.Skeleton
import proofs.«104177_j75368086110967_1_alg».proof.Proof.Loss
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileValue

open Cert.KernelIdeal Cert.KernelIdeal.Gen Cert.Loss
open Idealize.ShloMosaic Idealize.ShloMosaic.ValueIdx

/-! ## Layout operations the body uses, at an index -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(p, z)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt; omega

/-- The lane sum of a `[128, 16384]` block at row `r`. -/
theorem laneSum_at (src : FVec Ideal S128x16384 .f32) (h : S128x16384.Reduces [1] S128) (hφ : FKind.Formats .f32)
    (hacc : (0x00000000#32 : BitVec 32) = FKind.add.neutral .f32 hφ) (r : Fin 128) :
    multiReduction .add [1] S128 src 0x00000000#32 h hφ hacc (ix1 r) = ∑ j : Fin 16384, src (ix2 r j) :=
  (Ideal.multiReduction_add_single src 0x00000000#32 h hφ hacc (ix1 r)).trans
    (Finset.sum_congr rfl fun j _ => congrArg src (funext fun a => Fin.ext (match a with | ⟨0, _⟩ => rfl | ⟨1, _⟩ => rfl)))

/-- The sum down a `[128, 1]` column. -/
theorem colSum_at (src : FVec Ideal S128x1 .f32) (h : S128x1.Reduces [0] S1) (hφ : FKind.Formats .f32)
    (hacc : (0x00000000#32 : BitVec 32) = FKind.add.neutral .f32 hφ) (z : Fin 1) :
    multiReduction .add [0] S1 src 0x00000000#32 h hφ hacc (ix1 z) = ∑ r : Fin 128, src (ix2 r z) :=
  (Ideal.multiReduction_add_single src 0x00000000#32 h hφ hacc (ix1 z)).trans
    (Finset.sum_congr rfl fun r _ => congrArg src (funext fun a => Fin.ext (match a with | ⟨0, _⟩ => rfl | ⟨1, _⟩ => rfl)))

/-- The logarithm and the exponential of a block, at an index. -/
theorem log_at {s : Shape} (v : FVec Ideal s .f32) (i : s.Idx) : log v i = Ideal.log (v i) := rfl
theorem exp_at {s : Shape} (v : FVec Ideal s .f32) (i : s.Idx) : exp v i = Ideal.exp (v i) := rfl

/-! ## The payloads -/

/-- The reset stores zero. -/
theorem reset_at (y : S1x1.Idx) : k0_pay1 (F := Ideal) y = 0 := by
  unfold k0_pay1
  simp only [shapeCast_self]
  exact Ideal.ofBits_zero_f32

/-- One tile's update of the accumulator: its 128 rows' terms are added. -/
theorem update_at (x0 x1 : FVec Ideal S1x16384 .f32) (x2 x3 x4 : FVec Ideal S128x1 .f32) (acc : FVec Ideal S1x1 .f32)
    (y : S1x1.Idx) :
    k0_pay2 (F := Ideal) x0 x1 x2 x3 x4 acc y
      = acc y + ∑ r : Fin 128, (x3 (ix2 r 0)
          - Ideal.log (∑ j : Fin 16384, atRisk (x2 (ix2 r 0)) (x0 (ix2 0 j)) * Ideal.exp (x1 (ix2 0 j)))) * x4 (ix2 r 0) := by
  unfold k0_pay2
  simp only [shapeCast_self]
  rw [addf_apply]
  refine congrArg (acc y + ·) ?_
  refine (shapeCast_apply _ _ y (ix1 (0 : Fin 1)) ?_).trans ?_
  · rw [Shape.rowMajor_val_one, Shape.rowMajor_val_two]
    have h0 : (y 0).val < 1 := (y 0).isLt
    have h1 : (y 1).val < 1 := (y 1).isLt
    show (0 : ℕ) = (y 0).val * 1 + (y 1).val
    omega
  refine (colSum_at _ _ _ _ 0).trans ?_
  refine Finset.sum_congr rfl fun r _ => ?_
  rw [mulf_apply, subf_apply, log_at]
  refine congrArg (fun z => (x3 (ix2 r 0) - Ideal.log z) * x4 (ix2 r 0)) ?_
  refine (shapeCast_a_a1_apply _ _ r 0).trans ?_
  refine (laneSum_at _ _ _ _ r).trans ?_
  refine Finset.sum_congr rfl fun j _ => ?_
  rw [mulf_apply, sitofp_apply, extui_apply, cmpf_apply, broadcastTo_1b_ab_apply, broadcastTo_a1_ab_apply,
    broadcastTo_1b_ab_apply, atRisk_of_widened_signed, exp_at]

/-- The finishing step: minus the accumulator over 16384. -/
theorem finish_at (v : FVec Ideal S1x1 .f32) (y : S1x1.Idx) :
    k0_pay3 (F := Ideal) v y = -(Ideal.div (v y) (Ideal.ofBits .f32 0x46800000#32)) := by
  unfold k0_pay3
  show Ideal.ofBits .f32 0x00000000#32 - Ideal.div (v y) (Ideal.ofBits .f32 0x46800000#32) = _
  rw [Ideal.ofBits_zero_f32, zero_sub]

end Cert.KernelIdeal.TileValue

end
-- ==== Proof.Blocks.lean ====
/-
  The kernel's five input blocks at a grid point, read at an index, as entries of the argument arrays.

  The duration row and the score row are whole [1, 16384] arrays, the same block at every point: lane j holds
  sample j's duration, respectively score. The three [128, 1] columns move with the point: at point t, row r of
  the block is row 128·t + r of the array, which is sample 128·t + r's duration, score, event mark.
  Four of the five arrays are reshapes of an argument made before the region (a vector laid out as a row or as
  a column; the score column laid out as a row); a reshape keeps the row-major position, which for these
  shapes is the sample number.
-/
import proofs.«104177_j75368086110967_1_alg».proof.Proof.Gen.KernelIdeal.Frame
import proofs.«104177_j75368086110967_1_alg».proof.Proof.TileValue
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Cert.KernelIdeal.TileValue Cert.Loss
open Idealize.ShloMosaic.ValueIdx

variable {F : FTy → Type} [FloatOps F]
variable (m : (ℓ : Loc nD τ sig) → Buf (Elt F) ℓ)

/-- A grid point as a tile number. -/
abbrev tile (t : Fin cfg0.N) : Fin 128 := ⟨t.val, lt_of_lt_of_eq t.isLt (show cfg0.N = 128 from N_0)⟩

/-! ## Which block each window stages at a point -/

theorem index_durRow : ∀ t : Fin cfg0.N, win0_0.index t 0 = 0 ∧ win0_0.index t 1 = 0 :=
  (by decide +kernel : ∀ t : Fin grid0.N, win0_0.index t 0 = 0 ∧ win0_0.index t 1 = 0)
theorem index_scoreRow : ∀ t : Fin cfg0.N, win0_1.index t 0 = 0 ∧ win0_1.index t 1 = 0 :=
  (by decide +kernel : ∀ t : Fin grid0.N, win0_1.index t 0 = 0 ∧ win0_1.index t 1 = 0)
theorem index_durCol : ∀ t : Fin cfg0.N, win0_2.index t 0 = t.val ∧ win0_2.index t 1 = 0 :=
  (by decide +kernel : ∀ t : Fin grid0.N, win0_2.index t 0 = t.val ∧ win0_2.index t 1 = 0)
theorem index_scoreCol : ∀ t : Fin cfg0.N, win0_3.index t 0 = t.val ∧ win0_3.index t 1 = 0 :=
  (by decide +kernel : ∀ t : Fin grid0.N, win0_3.index t 0 = t.val ∧ win0_3.index t 1 = 0)
theorem index_eventCol : ∀ t : Fin cfg0.N, win0_4.index t 0 = t.val ∧ win0_4.index t 1 = 0 :=
  (by decide +kernel : ∀ t : Fin grid0.N, win0_4.index t 0 = t.val ∧ win0_4.index t 1 = 0)

/-! ## A block's entry is an entry of its array -/

theorem durRow_read (c : Dev nD) (t : Fin cfg0.N) (j : Fin 16384) :
    (iblk m c 0 t : Vec F S1x16384 .f32) (ix2 0 j) = V m c main_v1 (ix2 0 j) := by
  unfold iblk
  rw [View.read_apply]
  show V m c main_v1 _ = V m c main_v1 _
  refine congrArg (V m c main_v1) (funext fun a => Fin.ext ?_)
  match a with
  | ⟨0, _⟩ => show win0_0.index t 0 * 1 + 1 * 0 = 0; rw [(index_durRow t).1]
  | ⟨1, _⟩ => show win0_0.index t 1 * 16384 + 1 * j.val = j.val; rw [(index_durRow t).2]; omega

theorem scoreRow_read (c : Dev nD) (t : Fin cfg0.N) (j : Fin 16384) :
    (iblk m c 1 t : Vec F S1x16384 .f32) (ix2 0 j) = V m c main_v0 (ix2 0 j) := by
  unfold iblk
  rw [View.read_apply]
  show V m c main_v0 _ = V m c main_v0 _
  refine congrArg (V m c main_v0) (funext fun a => Fin.ext ?_)
  match a with
  | ⟨0, _⟩ => show win0_1.index t 0 * 1 + 1 * 0 = 0; rw [(index_scoreRow t).1]
  | ⟨1, _⟩ => show win0_1.index t 1 * 16384 + 1 * j.val = j.val; rw [(index_scoreRow t).2]; omega

theorem durCol_read (c : Dev nD) (t : Fin cfg0.N) (r : Fin 128) :
    (iblk m c 2 t : Vec F S128x1 .f32) (ix2 r 0) = V m c main_v2 (ix2 (row (tile t) r) 0) := by
  unfold iblk
  rw [View.read_apply]
  show V m c main_v2 _ = V m c main_v2 _
  refine congrArg (V m c main_v2) (funext fun a => Fin.ext ?_)
  match a with
  | ⟨0, _⟩ => show win0_2.index t 0 * 128 + 1 * r.val = 128 * t.val + r.val; rw [(index_durCol t).1]; omega
  | ⟨1, _⟩ => show win0_2.index t 1 * 1 + 1 * 0 = 0; rw [(index_durCol t).2]

theorem scoreCol_read (c : Dev nD) (t : Fin cfg0.N) (r : Fin 128) :
    (iblk m c 3 t : Vec F S128x1 .f32) (ix2 r 0) = V m c main_arg0 (ix2 (row (tile t) r) 0) := by
  unfold iblk
  rw [View.read_apply]
  show V m c main_arg0 _ = V m c main_arg0 _
  refine congrArg (V m c main_arg0) (funext fun a => Fin.ext ?_)
  match a with
  | ⟨0, _⟩ => show win0_3.index t 0 * 128 + 1 * r.val = 128 * t.val + r.val; rw [(index_scoreCol t).1]; omega
  | ⟨1, _⟩ => show win0_3.index t 1 * 1 + 1 * 0 = 0; rw [(index_scoreCol t).2]

theorem eventCol_read (c : Dev nD) (t : Fin cfg0.N) (r : Fin 128) :
    (iblk m c 4 t : Vec F S128x1 .f32) (ix2 r 0) = V m c main_v3 (ix2 (row (tile t) r) 0) := by
  unfold iblk
  rw [View.read_apply]
  show V m c main_v3 _ = V m c main_v3 _
  refine congrArg (V m c main_v3) (funext fun a => Fin.ext ?_)
  match a with
  | ⟨0, _⟩ => show win0_4.index t 0 * 128 + 1 * r.val = 128 * t.val + r.val; rw [(index_eventCol t).1]; omega
  | ⟨1, _⟩ => show win0_4.index t 1 * 1 + 1 * 0 = 0; rw [(index_eventCol t).2]

/-! ## The arrays the region finds are reshapes of the arguments -/

/-- A column `[a, 1]` laid out as a row `[1, a]` reads, at `(u, i)`, the column's entry `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) := by
  refine shapeCast_apply x h (ix2 u i) (ix2 i (0 : Fin 1)) ?_
  rw [Shape.rowMajor_val_two, Shape.rowMajor_val_two]
  show i.val * 1 + 0 = u.val * a + i.val
  have hu : u.val = 0 := by omega
  rw [hu]; omega

theorem durRow_array (c : Dev nD) :
    V m c main_v1 = shapeCast S1x16384 (m ((c : Thread nD τ).loc main_arg1)) shapeCasts_S16384_S1x16384 := by
  show StableHlo.after hostOps0 (fun b => m (c, b)) (Proc.devRef .tc main_v1) = _
  after_results
  rfl

theorem scoreRow_array (c : Dev nD) :
    V m c main_v0 = shapeCast S1x16384 (m ((c : Thread nD τ).loc main_arg0)) shapeCasts_S16384x1_S1x16384 := by
  show StableHlo.after hostOps0 (fun b => m (c, b)) (Proc.devRef .tc main_v0) = _
  after_results
  rfl

theorem durCol_array (c : Dev nD) :
    V m c main_v2 = shapeCast S16384x1 (m ((c : Thread nD τ).loc main_arg1)) shapeCasts_S16384_S16384x1 := by
  show StableHlo.after hostOps0 (fun b => m (c, b)) (Proc.devRef .tc main_v2) = _
  after_results
  rfl

theorem eventCol_array (c : Dev nD) :
    V m c main_v3 = shapeCast S16384x1 (m ((c : Thread nD τ).loc main_arg2)) shapeCasts_S16384_S16384x1 := by
  show StableHlo.after hostOps0 (fun b => m (c, b)) (Proc.devRef .tc main_v3) = _
  after_results
  rfl

/-! ## A block's entry is a sample's value -/

/-- Lane `j` of the duration row is sample `j`'s duration. -/
theorem durRow_at (c : Dev nD) (t : Fin cfg0.N) (j : Fin 16384) :
    (iblk m c 0 t : Vec F S1x16384 .f32) (ix2 0 j) = m ((c : Thread nD τ).loc main_arg1) (ix1 j) := by
  rw [durRow_read, durRow_array]
  exact shapeCast_a_1a_apply _ _ 0 j

/-- Lane `j` of the score row is sample `j`'s score. -/
theorem scoreRow_at (c : Dev nD) (t : Fin cfg0.N) (j : Fin 16384) :
    (iblk m c 1 t : Vec F S1x16384 .f32) (ix2 0 j) = m ((c : Thread nD τ).loc main_arg0) (ix2 j 0) := by
  rw [scoreRow_read, scoreRow_array]
  exact shapeCast_a1_1a_apply _ _ 0 j

/-- Row `r` of the duration column at point `t` is sample `128·t + r`'s duration. -/
theorem durCol_at (c : Dev nD) (t : Fin cfg0.N) (r : Fin 128) :
    (iblk m c 2 t : Vec F S128x1 .f32) (ix2 r 0) = m ((c : Thread nD τ).loc main_arg1) (ix1 (row (tile t) r)) := by
  rw [durCol_read, durCol_array]
  exact shapeCast_a_a1_apply _ _ (row (tile t) r) 0

/-- Row `r` of the score column at point `t` is sample `128·t + r`'s score. -/
theorem scoreCol_at (c : Dev nD) (t : Fin cfg0.N) (r : Fin 128) :
    (iblk m c 3 t : Vec F S128x1 .f32) (ix2 r 0) = m ((c : Thread nD τ).loc main_arg0) (ix2 (row (tile t) r) 0) := by
  rw [scoreCol_read, V_main_arg0]

/-- Row `r` of the event column at point `t` is sample `128·t + r`'s event mark. -/
theorem eventCol_at (c : Dev nD) (t : Fin cfg0.N) (r : Fin 128) :
    (iblk m c 4 t : Vec F S128x1 .f32) (ix2 r 0) = m ((c : Thread nD τ).loc main_arg2) (ix1 (row (tile t) r)) := by
  rw [eventCol_read, eventCol_array]
  exact shapeCast_a_a1_apply _ _ (row (tile t) r) 0

end Cert.KernelIdeal.Blocks

end
-- ==== Proof.TileSums.lean ====
/-
  One grid point's update in terms of the samples, and the running sum of the tiles' sums.

  With θ, d, e the three argument arrays read as functions of the sample, the update at point t adds tile t's
  sum of terms to the accumulator: the blocks of point t hold the samples 128·t + r, and the two whole rows
  hold every sample. upTo n is the sum of the first n + 1 tiles' sums; it grows by one tile's sum per point and
  at n = 127 is the sum over all 128 tiles.
-/
import proofs.«104177_j75368086110967_1_alg».proof.Proof.Pieces
import proofs.«104177_j75368086110967_1_alg».proof.Proof.Blocks

noncomputable section

open scoped BigOperators
open Idealize.ShloMosaic Idealize.ShloMosaic.TcCoe Idealize.SL.Sem

namespace Cert.KernelIdeal.TileSums

open Cert.KernelIdeal Cert.KernelIdeal.Gen Cert.KernelIdeal.Pieces Cert.KernelIdeal.TileValue Cert.KernelIdeal.Blocks
open Cert.Loss Idealize.ShloMosaic.ValueIdx

variable (m : (ℓ : Loc nD τ sig) → Buf (Elt Ideal) ℓ)

/-- Core `c`'s scores, durations and event marks as functions of the sample. -/
abbrev score (c : Dev nD) : Fin 16384 → EReal := ofCol (m ((c : Thread nD τ).loc main_arg0))
abbrev duration (c : Dev nD) : Fin 16384 → EReal := ofVec (m ((c : Thread nD τ).loc main_arg1))
abbrev event (c : Dev nD) : Fin 16384 → EReal := ofVec (m ((c : Thread nD τ).loc main_arg2))

/-- One point's update, on that point's blocks: the tile's sum is added. -/
theorem tile_update (c : Dev nD) (t : Fin cfg0.N) (acc : FVec Ideal S1x1 .f32) (y : S1x1.Idx) :
    k0_pay2 (F := Ideal) (iblk m c 0 t) (iblk m c 1 t) (iblk m c 2 t) (iblk m c 3 t) (iblk m c 4 t) acc y
      = acc y + tileSum (score m c) (duration m c) (event m c) (tile t) := by
  refine (update_at (iblk m c 0 t) (iblk m c 1 t) (iblk m c 2 t) (iblk m c 3 t) (iblk m c 4 t) acc y).trans ?_
  refine congrArg (acc y + ·) ?_
  unfold tileSum
  refine Finset.sum_congr rfl fun r _ => ?_
  unfold term riskSum
  rw [scoreCol_at m c t r, durCol_at m c t r, eventCol_at m c t r]
  simp only [durRow_at m c t, scoreRow_at m c t]

/-- The sum of the first `n + 1` tiles' sums. -/
def upTo (c : Dev nD) (n : ℕ) : EReal :=
  ∑ t ∈ Finset.range (n + 1), (if h : t < 128 then tileSum (score m c) (duration m c) (event m c) ⟨t, h⟩ else 0)

theorem upTo_zero (c : Dev nD) :
    upTo m c 0 = tileSum (score m c) (duration m c) (event m c) ⟨0, by decide⟩ := by
  unfold upTo
  rw [Finset.sum_range_one, dif_pos (by decide)]

theorem upTo_succ (c : Dev nD) (n : ℕ) (h : n + 1 < 128) :
    upTo m c (n + 1) = upTo m c n + tileSum (score m c) (duration m c) (event m c) ⟨n + 1, h⟩ := by
  unfold upTo
  rw [Finset.sum_range_succ _ (n + 1), dif_pos h]

theorem upTo_last (c : Dev nD) :
    upTo m c 127 = ∑ t : Fin 128, tileSum (score m c) (duration m c) (event m c) t := by
  unfold upTo
  exact sum_range_fin (tileSum (score m c) (duration m c) (event m c))

end Cert.KernelIdeal.TileSums

end
-- ==== Proof.Accumulate.lean ====
/-
  The accumulator after each grid point, and the output after the last.

  The first point starts from the zero the reset stored and adds tile 0's sum; every later point adds its own
  tile's sum to what the point before left. So by induction on the point the accumulator after point n holds the
  sum of the first n + 1 tiles' sums. The last point, 127, applies the finishing step to the sum of all 128
  tiles' sums, which is the sum over all samples: the output cell then holds the loss.
-/
import proofs.«104177_j75368086110967_1_alg».proof.Proof.TileSums

noncomputable section

open scoped BigOperators
open Idealize.ShloMosaic Idealize.ShloMosaic.TcCoe Idealize.SL.Sem

namespace Cert.KernelIdeal.Accumulate

open Cert.KernelIdeal Cert.KernelIdeal.Gen Cert.KernelIdeal.Pieces Cert.KernelIdeal.TileValue Cert.KernelIdeal.Blocks
open Cert.KernelIdeal.TileSums Cert.Loss Idealize.ShloMosaic.ValueIdx

variable (m : (ℓ : Loc nD τ sig) → Buf (Elt Ideal) ℓ)

/-- After point `n` the accumulator holds the first `n + 1` tiles' sums. -/
theorem acc_eq (c : Dev nD) : ∀ (n : ℕ) (hn : n < cfg0.N) (y : S1x1.Idx), (outsAt0 m c n hn).2 y = upTo m c n := by
  intro n
  induction n with
  | zero =>
    intro hn y
    rw [outsAt0_A m c ⟨0, hn⟩ (Nat.zero_mod 128) (by show ¬(0 % 128 = 127); decide)]
    dsimp only
    refine (congrFun (acc_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) _ _ (iblk m c 0 ⟨0, hn⟩) (iblk m c 1 ⟨0, hn⟩) (iblk m c 2 ⟨0, hn⟩) (iblk m c 3 ⟨0, hn⟩) (iblk m c 4 ⟨0, hn⟩)) y).trans ?_
    refine (tile_update m c ⟨0, hn⟩ (k0_pay1 (F := Ideal)) y).trans ?_
    rw [reset_at, zero_add, upTo_zero]
  | succ n ih =>
    intro hn y
    have hN : n + 1 < 128 := lt_of_lt_of_eq hn (show cfg0.N = 128 from N_0)
    have h0 : ¬((⟨n + 1, hn⟩ : Fin cfg0.N).val % 128 = 0) := by show ¬((n + 1) % 128 = 0); omega
    have hprev := ih (Nat.lt_of_succ_lt hn)
    by_cases h1 : (⟨n + 1, hn⟩ : Fin cfg0.N).val % 128 = 127
    · rw [outsAt0_C m c ⟨n + 1, hn⟩ h0 h1]
      dsimp only
      refine (congrFun (acc_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) _) y).trans ?_
      refine (tile_update m c ⟨n + 1, hn⟩ _ y).trans ?_
      refine (congrArg (· + _) (hprev y)).trans ?_
      exact (upTo_succ m c n hN).symm
    · rw [outsAt0_B m c ⟨n + 1, hn⟩ h0 h1]
      dsimp only
      refine (congrFun (acc_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) _) y).trans ?_
      refine (tile_update m c ⟨n + 1, hn⟩ _ y).trans ?_
      refine (congrArg (· + _) (hprev y)).trans ?_
      exact (upTo_succ m c n hN).symm

/-- At the last point (the one point whose number is 127 modulo 128) the output cell receives the loss: the
    finishing step applied to the accumulator after that point, which by then holds all 128 tiles' sums, that is,
    the sum of every sample's term. -/
theorem out_eq (c : Dev nD) (t : Fin cfg0.N) (h1 : t.val % 128 = 127) (y : S1x1.Idx) :
    (outsAt0 m c t.val t.isLt).1 y = coxLoss (score m c) (duration m c) (event m c) := by
  obtain ⟨k, hk⟩ := t
  cases k with
  | zero => exact absurd h1 (by show ¬(0 % 128 = 127); decide)
  | succ n =>
    have hn : n + 1 < cfg0.N := hk
    have hN : n + 1 < 128 := lt_of_lt_of_eq hn (show cfg0.N = 128 from N_0)
    have h1' : (n + 1) % 128 = 127 := h1
    have h0 : ¬((⟨n + 1, hn⟩ : Fin cfg0.N).val % 128 = 0) := by show ¬((n + 1) % 128 = 0); omega
    show (outsAt0 m c (⟨n + 1, hn⟩ : Fin cfg0.N).val (⟨n + 1, hn⟩ : Fin cfg0.N).isLt).1 y = _
    rw [outsAt0_C m c ⟨n + 1, hn⟩ h0 h1]
    dsimp only
    refine (congrFun (out_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) _) y).trans ?_
    refine (finish_at _ y).trans ?_
    refine Eq.trans ?_ (coxLoss_eq_tiles (score m c) (duration m c) (event m c)).symm
    refine congrArg (fun z => -(Ideal.div z (Ideal.ofBits .f32 0x46800000#32))) ?_
    refine (tile_update m c ⟨n + 1, hn⟩ _ y).trans ?_
    refine (congrArg (· + _) (acc_eq m c n (Nat.lt_of_succ_lt hn) y)).trans ?_
    refine (upTo_succ m c n hN).symm.trans ?_
    have hlast : n + 1 = 127 := by omega
    rw [hlast]
    exact upTo_last m c

end Cert.KernelIdeal.Accumulate

end
-- ==== Proof.KernelValue.lean ====
/-
  The idealized kernel's run with its result named: the loss of the three sample arrays plus the weight penalty.

  The output array is one cell. Only the last grid point writes it back, and that point's block is the whole
  array, so the array ends at what the last point left in the output cell: the loss. After the region the
  program reshapes that cell to a scalar (which keeps its one value) and adds the weight penalty, computed from
  the fourth argument, which nothing has written.
-/
import proofs.«104177_j75368086110967_1_alg».proof.Proof.Accumulate
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.LossValue

open Cert.KernelIdeal Cert.KernelIdeal.Gen Cert.KernelIdeal.TileSums Cert.KernelIdeal.Accumulate Cert.Loss
open Idealize.ShloMosaic.ValueIdx

variable (m : (ℓ : Loc nD τ sig) → Buf (Elt Ideal) ℓ) (ρ : Dev nD → PrngReg)

/-- The last grid point. -/
abbrev lastPoint : Fin cfg0.N := ⟨127, by rw [show cfg0.N = 128 from N_0]; decide⟩

/-- The one-cell output array holding the loss. -/
abbrev lossCell (c : Dev nD) : Buf (Elt Ideal) ((c : Thread nD τ).loc main_v4) :=
  fun _ => coxLoss (score m c) (duration m c) (event m c)

/-- The one write-back, at the last point, writes the loss. -/
theorem flushed_eq (c : Dev nD) (t : Fin cfg0.N) (hf : (cfg0.win 5).flush t = true) :
    (dats m 0 c).flushed 5 t = ((cfg0.win 5).blk t).view.read (Elt Ideal) (lossCell m c) := by
  have h1 : t.val % 128 = 127 := (flush0_5 t).mp hf
  funext j
  show ((dats m 0 c).after 5 t) _ = _
  rw [after0_5, View.read_apply]
  exact out_eq m c t h1 _

/-- The last point's block is the whole output array. -/
theorem cover (c : Dev nD) (i : ((cfg0.win 5).arr.view.loc (c.tc : Thread nD τ)).2.ty.Idx) :
    ∃ t : Fin cfg0.N, (cfg0.win 5).flush t = true ∧ i ∈ ((cfg0.win 5).blk t).view.set :=
  ⟨lastPoint, (flush0_5 lastPoint).mpr rfl, by
    show i ∈ ((View.whole main_v4).slice (win0_5.rect lastPoint)).set
    rw [View.set_slice_whole, Rect.mem_set_unit]
    intro a
    have h0 : (i 0 : Nat) < 1 := (i 0).isLt
    have h1 : (i 1 : Nat) < 1 := (i 1).isLt
    match a with
    | ⟨0, _⟩ =>
      show win0_5.index lastPoint 0 * win0_5.size 0 ≤ (i 0 : Nat)
        ∧ (i 0 : Nat) < win0_5.index lastPoint 0 * win0_5.size 0 + win0_5.xsize (grid0.coords lastPoint) 0
      rw [show win0_5.index lastPoint 0 * win0_5.size 0 = 0 from by decide +kernel,
        show win0_5.xsize (grid0.coords lastPoint) 0 = 1 from by decide +kernel]
      omega
    | ⟨1, _⟩ =>
      show win0_5.index lastPoint 1 * win0_5.size 1 ≤ (i 1 : Nat)
        ∧ (i 1 : Nat) < win0_5.index lastPoint 1 * win0_5.size 1 + win0_5.xsize (grid0.coords lastPoint) 1
      rw [show win0_5.index lastPoint 1 * win0_5.size 1 = 0 from by decide +kernel,
        show win0_5.xsize (grid0.coords lastPoint) 1 = 1 from by decide +kernel]
      omega⟩

/-- So the output array ends holding the loss. -/
theorem final (c : Dev nD) : (dats m 0 c).arrAt 5 cfg0.N = lossCell m c :=
  (dats m 0 c).arrAt_eq_of_cover 5 (lossCell m c) (flushed_eq m c) (cover c)

/-- The program's result: the loss with the weight penalty added. -/
abbrev result (c : Dev nD) : Buf (Elt Ideal) ((c : Thread nD τ).loc main_v8) :=
  withPenalty reducesTo_S512x256_S_d0_1 h_S_ (fun _ => coxLoss (score m c) (duration m c) (event m c))
    (m ((c : Thread nD τ).loc main_arg3))

/-- The lines after the region leave it in the result buffer. -/
theorem tail_eq (c : Dev nD) :
    Pipeline.afterTail₀ cfgs (dats m) 0 (V0 m) [hostOps1, hostOps1_1, hostOps1_2] c main_v8 = result m c := by
  unfold Pipeline.afterTail₀
  simp only [hostOps1, hostOps1_1, hostOps1_2, List.flatten_cons, List.flatten_nil, List.append_nil, List.cons_append,
    List.nil_append]
  after_results
  have hout : Pipeline.withArrays (cfgs 0).spec c (V0 m c) (fun w => (dats m 0 c).arrAt w (cfgs 0).N)
      (Proc.tc.devRef main_v4) = lossCell m c :=
    (Pipeline.withArrays_arr spec0 launch0.win.arr_inj c _ _ 5).trans (final m c)
  have hW : Pipeline.withArrays (cfgs 0).spec c (V0 m c) (fun w => (dats m 0 c).arrAt w (cfgs 0).N)
      (Proc.tc.devRef main_arg3) = m ((c : Thread nD τ).loc main_arg3) :=
    (Pipeline.withArrays_of_ne _ c (V0 m c) _ main_arg3
      (by exact (by decide : ∀ w, Pipeline.arrRef spec0 w ≠ main_arg3))).trans (V_main_arg3 m c)
  rw [hout]
  erw [hW]
  rfl

/-- The run, read: the result buffer at the loss plus the penalty, the four arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LossValue

end
-- ==== Proof.lean ====
/-
  The Cox partial-likelihood loss with an L2 weight penalty: a tiled kernel against its whole-array reference,
  equal over the extended reals.

  Both programs compute, from scores θ, durations d and event marks e of 16384 samples and a weight array W,
      −((∑ i, (θ i − log (∑ j, [d j ≥ d i] · exp θ j)) · e i) / 16384) + λ · sqrt (∑ W²).
  The reference forms the whole 16384 × 16384 weighted matrix and sums it row by row, then sums the rows' terms.
  The kernel walks 128 tiles of 128 rows: at each grid point it forms the tile's 128 × 16384 weighted block from
  the full duration and score rows and the tile's own columns, reduces it to the tile's 128 terms, and adds their
  sum to a one-cell accumulator that is reset at the first point; the last point divides by 16384, negates
  (as 0 − x) and stores the one-cell output, to which the host adds the same penalty.

  The two agree because (i) the comparison bit read as an unsigned number and the same bit widened and read as a
  signed number are the same 0 or 1, (ii) a product commutes, (iii) a sum over 16384 samples regroups as the sum
  over 128 tiles of each tile's sum, addition on the extended reals being commutative and associative, and
  0 + x = x, and (iv) 0 − x = −x. None of these needs a finite input, so the precondition is not opened. The
  exponential, the logarithm, the division by the word of 16384 and the whole penalty are the same operations on
  both sides and are never evaluated.

  The three frames: the two kernel programs' are their frame certificates; the reference has no kernel and its
  frame is its run with the result forgotten. The idealization rewrote nothing, so preserves is trivial.
-/
import proofs.«104177_j75368086110967_1_alg».proof.Defs
import proofs.«104177_j75368086110967_1_alg».proof.Proof.Gen.Kernel
import proofs.«104177_j75368086110967_1_alg».proof.Proof.Gen.Kernel.Skeleton
import proofs.«104177_j75368086110967_1_alg».proof.Proof.Gen.Kernel.Launch
import proofs.«104177_j75368086110967_1_alg».proof.Proof.Gen.Kernel.Points
import proofs.«104177_j75368086110967_1_alg».proof.Proof.Gen.Kernel.Frame
import proofs.«104177_j75368086110967_1_alg».proof.Proof.Gen.KernelIdeal
import proofs.«104177_j75368086110967_1_alg».proof.Proof.Gen.KernelIdeal.Skeleton
import proofs.«104177_j75368086110967_1_alg».proof.Proof.Gen.KernelIdeal.Launch
import proofs.«104177_j75368086110967_1_alg».proof.Proof.Gen.KernelIdeal.Points
import proofs.«104177_j75368086110967_1_alg».proof.Proof.Gen.KernelIdeal.Frame
import proofs.«104177_j75368086110967_1_alg».proof.Proof.Gen.ReferenceIdeal
import proofs.«104177_j75368086110967_1_alg».proof.Proof.Gen.ReferenceIdeal.Run
import proofs.«104177_j75368086110967_1_alg».proof.Proof.Gen.ReferenceIdeal.Read
import proofs.«104177_j75368086110967_1_alg».proof.Proof.Gen.Pre_finite_inputs
import proofs.«104177_j75368086110967_1_alg».proof.Proof.RefValue
import proofs.«104177_j75368086110967_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the loss of the (agreeing) sample arrays plus the penalty of the
    (agreeing) weight array. -/
theorem algebraic : Cert.algebraic_KernelIdeal_ReferenceIdeal := by
  intro m ρ m' ρ' _ hagree
  refine ⟨fun c => Cert.KernelIdeal.LossValue.result m c, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.LossValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
